-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S64x32 : Shape := ⟨2, ![64, 32]⟩
abbrev S128x160 : Shape := ⟨2, ![128, 160]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S128x160 : S_.BroadcastsInDim S128x160 (![] : Fin 0 → Fin S128x160.rank)
  reducesTo_S128x160_S_d0_1 : S128x160.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg10 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_v33

def fn {F : FTy → Type} [FloatOps F] (main_arg0 : FVec F S100000x128 .f32) (main_arg1 : IVec S1600000 32) (main_arg2 : IVec S1600000 32) (main_arg3 : IVec S1600000 32) (main_arg4 : FVec F S64x32 .f32) (main_arg5 : FVec F S128x160 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x32 .f32 := Host.absf main_arg4
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S128x160 .f32 := Host.absf main_arg5
  let main_cst_2 : FVec F S_ .f32 := constant S_ .f32 0x7F800000#32
  let main_v10 : FVec F S128x160 .f32 := broadcastInDim S128x160 ![] bcast_S_S128x160 main_cst_2
  let main_v11 : IVec S128x160 1 := cmpf .olt main_v9 main_v10
  let main_c_3 : IVec S_ 1 := constantI S_ 1 1#1
  let main_v12 : IVec S_ 1 := (fun x v => Host.reduce IntOp.andi x v reducesTo_S128x160_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_v13 main_v16
-- ==== Kernel.lean ====
abbrev S100000x128 : Shape := ⟨2, ![100000, 128]⟩
abbrev S1600000 : Shape := ⟨1, ![1600000]⟩
abbrev S64x32 : Shape := ⟨2, ![64, 32]⟩
abbrev S128x160 : Shape := ⟨2, ![128, 160]⟩
abbrev S128 : Shape := ⟨1, ![128]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S1600000x32 : Shape := ⟨2, ![1600000, 32]⟩
abbrev S1600000x160 : Shape := ⟨2, ![1600000, 160]⟩
abbrev S160x128 : Shape := ⟨2, ![160, 128]⟩
abbrev S1x128 : Shape := ⟨2, ![1, 128]⟩
abbrev S8000x160 : Shape := ⟨2, ![8000, 160]⟩
abbrev S8000x128 : Shape := ⟨2, ![8000, 128]⟩
abbrev S100000 : Shape := ⟨1, ![100000]⟩
abbrev S100000x1 : Shape := ⟨2, ![100000, 1]⟩
abbrev S5000x128 : Shape := ⟨2, ![5000, 128]⟩

abbrev nBuf : Space → Nat
  | .hbm => 54
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .i32⟩
  | .hbm, ⟨4, _⟩ => ⟨S64x32, .f32⟩
  | .hbm, ⟨5, _⟩ => ⟨S128x160, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x32, .f32⟩
  | .hbm, ⟨29, _⟩ => ⟨S1600000x160, .f32⟩
  | .hbm, ⟨30, _⟩ => ⟨S160x128, .f32⟩
  | .hbm, ⟨31, _⟩ => ⟨S1x128, .f32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S_, .f32⟩
  | .hbm, ⟨38, _⟩ => ⟨S1600000, .f32⟩
  | .hbm, ⟨39, _⟩ => ⟨S_, .f32⟩
  | .hbm, ⟨40, _⟩ => ⟨S100000, .f32⟩
  | .hbm, ⟨41, _⟩ => ⟨S1600000x1, .i32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S128x128, .f32⟩
  | .hbm, ⟨50, _⟩ => ⟨S128x128, .f32⟩
  | .hbm, ⟨51, _⟩ => ⟨S1x128, .f32⟩
  | .hbm, ⟨52, _⟩ => ⟨S1x128, .f32⟩
  | .hbm, ⟨53, _⟩ => ⟨S100000x128, .f32⟩
  | .local _ .vmem, ⟨0, _⟩ => ⟨S8000x160, .f32⟩
  | .local _ .vmem, ⟨1, _⟩ => ⟨S8000x160, .f32⟩
  | .local _ .vmem, ⟨2, _⟩ => ⟨S160x128, .f32⟩
  | .local _ .vmem, ⟨3, _⟩ => ⟨S1x128, .f32⟩
  | .local _ .vmem, ⟨4, _⟩ => ⟨S8000x128, .f32⟩
  | .local _ .vmem, ⟨5, _⟩ => ⟨S8000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x128_S1600000x32_S1600000x160_d1 : Shape.Concatenates [S1600000x128, S1600000x32] S1600000x160 1
  transposes_S128x160_S160x128_1_0 : S128x160.Transposes [1, 0] S160x128
  shapeCasts_S128_S1x128 : S128.ShapeCasts S1x128
  inb_S8000x160_S8000x160_0_0 : ∀ a, (![0, 0] : Fin 2 → Nat) a + S8000x160.size a ≤ S8000x160.size a
  h_S8000x160 : 0 < S8000x160.numel
  shapeCasts_S8000x160_S8000x160 : S8000x160.ShapeCasts S8000x160
  bitsLt_bf16_f32 : FTy.bits .bf16 < FTy.bits .f32
  inb_S160x128_S160x128_0_0 : ∀ a, (![0, 0] : Fin 2 → Nat) a + S160x128.size a ≤ S160x128.size a
  h_S160x128 : 0 < S160x128.numel
  shapeCasts_S160x128_S160x128 : S160x128.ShapeCasts S160x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  gather_S64x32_S1600000x1_S1600000x32_1_0_n_n_0_1_132_wf : GatherDims.WF S64x32 S1600000x1 S1600000x32 [1] [0] [] [0] [] 1 ![1, 32]
  dot_S8000x160_S160x128_S8000x128_1_0_0_1_n_n_wf : DotDims.WF S8000x160 S160x128 S8000x128 [1] [0] [0] [1] [] []
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x160.size a ≤ S1600000x160.size a
  hwx0_0 : ∀ i : grid0.Coords, EltTy.bits .f32 = 32 ∨ (Rect.block (s := S1600000x160) S8000x160.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x128.size a ≤ S160x128.size a
  hwx0_1 : ∀ i : grid0.Coords, EltTy.bits .f32 = 32 ∨ (Rect.block (s := S160x128) S160x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S1600000x128.size a
  hwx0_3 : ∀ i : grid0.Coords, EltTy.bits .f32 = 32 ∨ (Rect.block (s := S1600000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S64x32_S1600000x1_S1600000x32_1_0_n_n_0_1_132 : GatherDims S64x32 S1600000x1 S1600000x32 where
  offsetDims := [1]
  collapsedSliceDims := [0]
  operandBatchingDims := []
  startIndicesBatchingDims := []
  startIndexMap := [0]
  indexVectorDim := 1
  sliceSizes := ![1, 32]
  wf := gather_S64x32_S1600000x1_S1600000x32_1_0_n_n_0_1_132_wf
def dot_S8000x160_S160x128_S8000x128_1_0_0_1_n_n : DotDims S8000x160 S160x128 S8000x128 where
  lhsContracting := [1]
  rhsContracting := [0]
  lhsNonContracting := [0]
  rhsNonContracting := [1]
  lhsBatch := []
  rhsBatch := []
  wf := dot_S8000x160_S160x128_S8000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v14) S8000x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S160x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S64x32 : Shape := ⟨2, ![64, 32]⟩
abbrev S128x160 : Shape := ⟨2, ![128, 160]⟩
abbrev S128 : Shape := ⟨1, ![128]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S1600000x32 : Shape := ⟨2, ![1600000, 32]⟩
abbrev S1600000x160 : Shape := ⟨2, ![1600000, 160]⟩
abbrev S160x128 : Shape := ⟨2, ![160, 128]⟩
abbrev S1x128 : Shape := ⟨2, ![1, 128]⟩
abbrev S100000 : Shape := ⟨1, ![100000]⟩
abbrev S100000x1 : Shape := ⟨2, ![100000, 1]⟩

abbrev nBuf : Space → Nat
  | .hbm => 65
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .i32⟩
  | .hbm, ⟨4, _⟩ => ⟨S64x32, .f32⟩
  | .hbm, ⟨5, _⟩ => ⟨S128x160, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x32, .f32⟩
  | .hbm, ⟨29, _⟩ => ⟨S1600000x160, .f32⟩
  | .hbm, ⟨30, _⟩ => ⟨S160x128, .f32⟩
  | .hbm, ⟨31, _⟩ => ⟨S1600000x128, .f32⟩
  | .hbm, ⟨32, _⟩ => ⟨S1x128, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S_, .f32⟩
  | .hbm, ⟨40, _⟩ => ⟨S1600000, .f32⟩
  | .hbm, ⟨41, _⟩ => ⟨S_, .f32⟩
  | .hbm, ⟨42, _⟩ => ⟨S100000, .f32⟩
  | .hbm, ⟨43, _⟩ => ⟨S1600000x1, .i32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S128x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S128x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call0_cst : Ref sig .tc := ⟨.hbm, 62, rfl⟩
abbrev main_call0_v0 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x128_S1600000x32_S1600000x160_d1 : Shape.Concatenates [S1600000x128, S1600000x32] S1600000x160 1
  transposes_S128x160_S160x128_1_0 : S128x160.Transposes [1, 0] S160x128
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  gather_S64x32_S1600000x1_S1600000x32_1_0_n_n_0_1_132_wf : GatherDims.WF S64x32 S1600000x1 S1600000x32 [1] [0] [] [0] [] 1 ![1, 32]
  dot_S1600000x160_S160x128_S1600000x128_1_0_0_1_n_n_wf : DotDims.WF S1600000x160 S160x128 S1600000x128 [1] [0] [0] [1] [] []
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S64x32_S1600000x1_S1600000x32_1_0_n_n_0_1_132 : GatherDims S64x32 S1600000x1 S1600000x32 where
  offsetDims := [1]
  collapsedSliceDims := [0]
  operandBatchingDims := []
  startIndicesBatchingDims := []
  startIndexMap := [0]
  indexVectorDim := 1
  sliceSizes := ![1, 32]
  wf := gather_S64x32_S1600000x1_S1600000x32_1_0_n_n_0_1_132_wf
def dot_S1600000x160_S160x128_S1600000x128_1_0_0_1_n_n : DotDims S1600000x160 S160x128 S1600000x128 where
  lhsContracting := [1]
  rhsContracting := [0]
  lhsNonContracting := [0]
  rhsNonContracting := [1]
  lhsBatch := []
  rhsBatch := []
  wf := dot_S1600000x160_S160x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.MsgBody.lean ====
/-
  The edge-message body at the exact values. One grid point of the first call loads a block of 8000 edge-feature rows
  (160 features each), the whole transposed weight matrix (160 x 128) and the bias row (1 x 128), and stores
  `feats · Wᵀ + b`: the contraction runs into a zero accumulator, the two roundings to bf16 on the way into it are
  the identity on extended reals, and the bias row is repeated down the 8000 rows. Read at a block index (p, q) the
  stored value is therefore  Σ_k feats[p, k] · Wᵀ[k, q]  +  b[0, q].
-/
import proofs.«106991_j14216341749897_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.MsgBody

open Cert.KernelIdeal Cert.KernelIdeal.Gen Idealize.ShloMosaic Idealize.ShloMosaic.TcCoe Idealize.SL.Sem

/-! ## Where the contraction reads its two operands -/

theorem lhs_axis0 (i : S8000x128.Idx) (q : dot_S8000x160_S160x128_S8000x128_1_0_0_1_n_n.contr.Idx) :
    (dot_S8000x160_S160x128_S8000x128_1_0_0_1_n_n.lhsIdx i q 0).val = (i 0).val := by
  unfold DotDims.lhsIdx
  rw [dif_neg (show ¬(0 : Fin S8000x160.rank) ∈ dot_S8000x160_S160x128_S8000x128_1_0_0_1_n_n.lhsBatch by decide), dif_pos (show (0 : Fin S8000x160.rank) ∈ dot_S8000x160_S160x128_S8000x128_1_0_0_1_n_n.lhsNonContracting by decide)]
  rfl
theorem lhs_axis1 (i : S8000x128.Idx) (q : dot_S8000x160_S160x128_S8000x128_1_0_0_1_n_n.contr.Idx) :
    (dot_S8000x160_S160x128_S8000x128_1_0_0_1_n_n.lhsIdx i q 1).val = (q ⟨0, by decide⟩).val :=
  dot_S8000x160_S160x128_S8000x128_1_0_0_1_n_n.lhsIdx_val_of_single rfl i q
theorem rhs_axis0 (i : S8000x128.Idx) (q : dot_S8000x160_S160x128_S8000x128_1_0_0_1_n_n.contr.Idx) :
    (dot_S8000x160_S160x128_S8000x128_1_0_0_1_n_n.rhsIdx i q 0).val = (q ⟨0, by decide⟩).val :=
  dot_S8000x160_S160x128_S8000x128_1_0_0_1_n_n.rhsIdx_val_of_single rfl i q
theorem rhs_axis1 (i : S8000x128.Idx) (q : dot_S8000x160_S160x128_S8000x128_1_0_0_1_n_n.contr.Idx) :
    (dot_S8000x160_S160x128_S8000x128_1_0_0_1_n_n.rhsIdx i q 1).val = (i 1).val := by
  unfold DotDims.rhsIdx
  rw [dif_neg (show ¬(1 : Fin S160x128.rank) ∈ dot_S8000x160_S160x128_S8000x128_1_0_0_1_n_n.rhsBatch by decide), dif_pos (show (1 : Fin S160x128.rank) ∈ dot_S8000x160_S160x128_S8000x128_1_0_0_1_n_n.rhsNonContracting by decide)]
  rfl

/-- Row `i 0` of the feature block, feature `k`. -/
abbrev featAt (i : S8000x128.Idx) (k : Fin 160) : S8000x160.Idx := fun a => match a with
  | ⟨0, _⟩ => ⟨(i 0).val, (i 0).isLt⟩
  | ⟨1, _⟩ => ⟨k.val, k.isLt⟩
/-- Row `k` of the transposed weights, output column `i 1`. -/
abbrev weightAt (i : S8000x128.Idx) (k : Fin 160) : S160x128.Idx := fun a => match a with
  | ⟨0, _⟩ => ⟨k.val, k.isLt⟩
  | ⟨1, _⟩ => ⟨(i 1).val, (i 1).isLt⟩
/-- The bias row at output column `i 1`. -/
abbrev biasAt (i : S8000x128.Idx) : S1x128.Idx := fun a => match a with
  | ⟨0, _⟩ => ⟨0, Nat.one_pos⟩
  | ⟨1, _⟩ => ⟨(i 1).val, (i 1).isLt⟩

/-! ## The stored block at an index -/

/-- The body's stored value at (p, q): the sum over the 160 features of feature times weight, plus the bias at q. -/
theorem stored_apply (x0 : Vec Ideal S8000x160 .f32) (x1 : Vec Ideal S160x128 .f32) (x2 : Vec Ideal S1x128 .f32) (i : S8000x128.Idx) :
    k0_pay1 (F := Ideal) x0 x1 x2 i = (∑ k : Fin 160, x0 (featAt i k) * x1 (weightAt i k)) + x2 (biasAt i) := by
  unfold k0_pay1
  rw [shapeCast_self, shapeCast_self, shapeCast_self, ValueIdx.addf_apply]
  simp only [matmul]
  rw [Ideal.matmul_constant_zero_apply, ← Equiv.sum_comp (ValueIdx.contrEquiv1 dot_S8000x160_S160x128_S8000x128_1_0_0_1_n_n 160 rfl rfl).symm]
  congr 1
  · refine Finset.sum_congr rfl fun k _ => ?_
    have hk := ValueIdx.contrEquiv1_symm_val dot_S8000x160_S160x128_S8000x128_1_0_0_1_n_n 160 rfl rfl k
    have el : dot_S8000x160_S160x128_S8000x128_1_0_0_1_n_n.lhsIdx i ((ValueIdx.contrEquiv1 dot_S8000x160_S160x128_S8000x128_1_0_0_1_n_n 160 rfl rfl).symm k) = featAt i k := funext fun a => Fin.ext (by
      match a with
      | ⟨0, _⟩ => exact lhs_axis0 _ _
      | ⟨1, _⟩ => exact (lhs_axis1 _ _).trans hk)
    have er : dot_S8000x160_S160x128_S8000x128_1_0_0_1_n_n.rhsIdx i ((ValueIdx.contrEquiv1 dot_S8000x160_S160x128_S8000x128_1_0_0_1_n_n 160 rfl rfl).symm k) = weightAt i k := funext fun a => Fin.ext (by
      match a with
      | ⟨0, _⟩ => exact (rhs_axis0 _ _).trans hk
      | ⟨1, _⟩ => exact rhs_axis1 _ _)
    rw [ValueIdx.truncf_apply, ValueIdx.truncf_apply, el, er]
  · exact broadcastTo_apply x2 broadcasts_S1x128_S8000x128 i (biasAt i) (fun a => match a with
      | ⟨0, _⟩ => by show 0 = if (1 : Nat) = 1 then 0 else _; rw [if_pos rfl]
      | ⟨1, _⟩ => by show (i 1).val = if (128 : Nat) = 1 then 0 else (i 1).val; rw [if_neg (by decide)])

end Cert.KernelIdeal.MsgBody

end
-- ==== Proof.MsgArray.lean ====
/-
  The message array after the first call, as ONE function of the arrays the call finds. The call's grid has 200
  points; point t stages rows 8000·t … 8000·t + 7999 of the edge-feature array (all 160 columns), the whole transposed
  weight matrix and the whole bias row, and writes back rows 8000·t … 8000·t + 7999 of the message array (all 128
  columns). Since the body's stored value at a block index depends only on that row of the features, the written
  blocks are the blocks of the whole-array function
      msg[e, o] = Σ_k feats[e, k] · Wᵀ[k, o] + b[0, o],
  and the 200 blocks tile the 1 600 000 rows, so the array ends holding exactly that function.
-/
import proofs.«106991_j14216341749897_1_alg».proof.Proof.Gen.KernelIdeal.Frame
import proofs.«106991_j14216341749897_1_alg».proof.Proof.MsgBody
import Idealize.ShloMosaic.Lib.Pipeline.Value

noncomputable section

namespace Cert.KernelIdeal.MsgArray

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The whole-array function -/

/-- Row `i 0` of the edge-feature array, feature `k`. -/
abbrev featAt (i : S1600000x128.Idx) (k : Fin 160) : S1600000x160.Idx := fun a => match a with
  | ⟨0, _⟩ => ⟨(i 0).val, (i 0).isLt⟩
  | ⟨1, _⟩ => ⟨k.val, k.isLt⟩
/-- Row `k` of the transposed weights, output column `i 1`. -/
abbrev weightAt (i : S1600000x128.Idx) (k : Fin 160) : S160x128.Idx := fun a => match a with
  | ⟨0, _⟩ => ⟨k.val, k.isLt⟩
  | ⟨1, _⟩ => ⟨(i 1).val, (i 1).isLt⟩
/-- The bias row at output column `i 1`. -/
abbrev biasAt (i : S1600000x128.Idx) : S1x128.Idx := fun a => match a with
  | ⟨0, _⟩ => ⟨0, Nat.one_pos⟩
  | ⟨1, _⟩ => ⟨(i 1).val, (i 1).isLt⟩

/-- The messages of all edges: each edge's feature row times the transposed weights, plus the bias. -/
def msgOf (feats : S1600000x160.Idx → Elt Ideal .f32) (wT : S160x128.Idx → Elt Ideal .f32) (b : S1x128.Idx → Elt Ideal .f32) :
    S1600000x128.Idx → Elt Ideal .f32 :=
  fun i => (∑ k : Fin 160, feats (featAt i k) * wT (weightAt i k)) + b (biasAt i)

/-! ## The grid's index maps -/

theorem zero_off : (![0, 0] : Fin 2 → Nat) = fun _ => 0 := funext fun a => by fin_cases a <;> rfl

/-- Decided over the 200 points: the feature window moves with the message window along the rows and stays at
    column block 0; the weight and bias windows never move; the message window's row block is below 200. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 199 :=
  (by decide +kernel : ∀ t : Fin grid0.N, _)

/-- Every row block is some point's. -/
theorem index_onto : ∀ q0 : Fin 200, ∃ t : Fin cfg0.N, win0_3.index t = ![q0.val, 0] :=
  (by decide +kernel : ∀ q0 : Fin 200, ∃ t : Fin grid0.N, win0_3.index t = ![q0.val, 0])

/-! ## What a point writes back -/

/-- Point `t` writes back block `t` of `msgOf` of the arrays as the call finds them. -/
theorem flushed_eq (c : Dev nD) (t : Fin cfg0.N) :
    (dat0 V c).flushed 3 t = ((cfg0.win 3).blk t).view.read (Elt Ideal) (msgOf (V c main_v14) (V c main_v15) (V c main_v16)) := by
  show (cfg0.win 3).cut (grid0.coords t) ((dat0 V c).after 3 t) = _
  rw [after0_3]
  unfold out0_3
  rw [View.canon_unit_zero zero_off]
  simp only [View.ld_unit_zero (S := S8000x160) zero_off, View.ld_unit_zero (S := S160x128) zero_off, View.ld_unit_zero (S := S1x128) zero_off]
  obtain ⟨e0, e1, e2, e3, e4, e5, e6, e7⟩ := index_facts t
  funext j
  show k0_pay1 (F := Ideal) (iblk0 V c 0 t) (iblk0 V c 1 t) (iblk0 V c 2 t) j
    = msgOf (V c main_v14) (V c main_v15) (V c main_v16) (((cfg0.win 3).blk t).view.emb j)
  refine (MsgBody.stored_apply (iblk0 V c 0 t) (iblk0 V c 1 t) (iblk0 V c 2 t) j).trans ?_
  unfold msgOf
  have hj0 : (j 0).val < 8000 := (j 0).isLt
  have hj1 : (j 1).val < 128 := (j 1).isLt
  have hf : ∀ k : Fin 160, iblk0 V c 0 t (MsgBody.featAt j k) = V c main_v14 (featAt (((cfg0.win 3).blk t).view.emb j) k) := fun k => by
    show V c main_v14 (((cfg0.win 0).blk t).view.emb (MsgBody.featAt j k)) = _
    refine congrArg (V c main_v14) (funext fun a => Fin.ext ?_)
    match a with
    | ⟨0, _⟩ => show win0_0.index t (0 : Fin 2) * 8000 + 1 * (j 0).val = win0_3.index t (0 : Fin 2) * 8000 + 1 * (j 0).val; omega
    | ⟨1, _⟩ => show win0_0.index t (1 : Fin 2) * 160 + 1 * k.val = k.val; omega
  have hw : ∀ k : Fin 160, iblk0 V c 1 t (MsgBody.weightAt j k) = V c main_v15 (weightAt (((cfg0.win 3).blk t).view.emb j) k) := fun k => by
    show V c main_v15 (((cfg0.win 1).blk t).view.emb (MsgBody.weightAt j k)) = _
    refine congrArg (V c main_v15) (funext fun a => Fin.ext ?_)
    match a with
    | ⟨0, _⟩ => show win0_1.index t (0 : Fin 2) * 160 + 1 * k.val = k.val; omega
    | ⟨1, _⟩ => show win0_1.index t (1 : Fin 2) * 128 + 1 * (j 1).val = win0_3.index t (1 : Fin 2) * 128 + 1 * (j 1).val; omega
  have hb : iblk0 V c 2 t (MsgBody.biasAt j) = V c main_v16 (biasAt (((cfg0.win 3).blk t).view.emb j)) := by
    show V c main_v16 (((cfg0.win 2).blk t).view.emb (MsgBody.biasAt j)) = _
    refine congrArg (V c main_v16) (funext fun a => Fin.ext ?_)
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  rw [hb]
  refine congrArg (· + _) (Finset.sum_congr rfl fun k _ => ?_)
  rw [hf k, hw k]

/-! ## The blocks tile the array -/

/-- An index of the message array is in point `t`'s block iff each coordinate is in the block's range on its axis. -/
theorem mem_blk (t : Fin cfg0.N) (i : S1600000x128.Idx) :
    i ∈ ((cfg0.win 3).blk t).view.set ↔ ∀ a : Fin 2, win0_3.index t a * S8000x128.size a ≤ (i a).val ∧ (i a).val < win0_3.index t a * S8000x128.size a + S8000x128.size a := by
  show i ∈ ((View.whole main_v17).slice (win0_3.rect t)).set ↔ _
  rw [View.set_slice_whole, Rect.mem_set_unit]
  exact Iff.rfl

/-- Every index lies in the block of the point whose row block is `row / 8000`. -/
theorem covered (i : S1600000x128.Idx) :
    ∃ t : Fin cfg0.N, (cfg0.win 3).flush t = true ∧ i ∈ ((cfg0.win 3).blk t).view.set := by
  have hi0 : (i 0).val < 1600000 := (i 0).isLt
  have hi1 : (i 1).val < 128 := (i 1).isLt
  obtain ⟨t, ht⟩ := index_onto ⟨(i 0).val / 8000, by omega⟩
  have q0 : win0_3.index t (0 : Fin 2) = (i 0).val / 8000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 8000 ≤ (i 0).val ∧ (i 0).val < win0_3.index t (0 : Fin 2) * 8000 + 8000; omega
  | ⟨1, _⟩ => show win0_3.index t (1 : Fin 2) * 128 ≤ (i 1).val ∧ (i 1).val < win0_3.index t (1 : Fin 2) * 128 + 128; omega

/-! ## The array after the call -/

/-- After the call the message array holds `msgOf` of the feature array, the transposed weights and the bias row. -/
theorem final (c : Dev nD) :
    (dat0 V c).arrAt 3 cfg0.N = msgOf (V c main_v14) (V c main_v15) (V c main_v16) :=
  (dat0 V c).arrAt_eq_of_cover 3 _ (fun t _ => flushed_eq V c t) covered

end Cert.KernelIdeal.MsgArray

end
-- ==== Proof.NodeBody.lean ====
/-
  The node-update body at the exact values. One grid point of the second call loads a block of 5000 node rows of the
  input features and of the aggregated messages (128 columns each), the two transposed weight matrices (128 x 128) and
  the two bias rows (1 x 128), and stores  max((x · Wsᵀ + bs) + (agg · Wnᵀ + bn), 0).  Each contraction runs into a
  zero accumulator and the roundings to bf16 on the way in are the identity on extended reals, so at a block index
  (p, q) the stored value is
      max( (Σ_k x[p, k] · Wsᵀ[k, q] + bs[0, q]) + (Σ_k agg[p, k] · Wnᵀ[k, q] + bn[0, q]), 0 ).
-/
import proofs.«106991_j14216341749897_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.NodeBody

open Cert.KernelIdeal Cert.KernelIdeal.Gen Idealize.ShloMosaic Idealize.ShloMosaic.TcCoe Idealize.SL.Sem

/-! ## Where a contraction reads its two operands -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `i 0` of a 5000-row block, column `k`. -/
abbrev rowAt (i : S5000x128.Idx) (k : Fin 128) : S5000x128.Idx := fun a => match a with
  | ⟨0, _⟩ => ⟨(i 0).val, (i 0).isLt⟩
  | ⟨1, _⟩ => ⟨k.val, k.isLt⟩
/-- Row `k` of a transposed weight matrix, output column `i 1`. -/
abbrev weightAt (i : S5000x128.Idx) (k : Fin 128) : S128x128.Idx := fun a => match a with
  | ⟨0, _⟩ => ⟨k.val, k.isLt⟩
  | ⟨1, _⟩ => ⟨(i 1).val, (i 1).isLt⟩
/-- A bias row at output column `i 1`. -/
abbrev biasAt (i : S5000x128.Idx) : S1x128.Idx := fun a => match a with
  | ⟨0, _⟩ => ⟨0, Nat.one_pos⟩
  | ⟨1, _⟩ => ⟨(i 1).val, (i 1).isLt⟩

/-! ## One linear layer at an index -/

/-- A block times a transposed weight matrix into a zero accumulator, plus a bias row repeated down the rows:
    at (p, q) the sum over the 128 columns of entry times weight, plus the bias at q. -/
theorem linear_apply (a : FVec Ideal S5000x128 .f32) (w : FVec Ideal S128x128 .f32) (b : FVec Ideal S1x128 .f32) (i : S5000x128.Idx) :
    addf (F := Ideal) (matmul (F := Ideal) dot_S5000x128_S128x128_S5000x128_1_0_0_1_n_n none (truncf (F := Ideal) .bf16 a bitsLt_bf16_f32) (truncf (F := Ideal) .bf16 w bitsLt_bf16_f32) (constant (F := Ideal) S5000x128 .f32 0x00000000#32))
        (broadcastTo S5000x128 b broadcasts_S1x128_S5000x128) i
      = (∑ k : Fin 128, a (rowAt i k) * w (weightAt i k)) + b (biasAt i) := by
  rw [ValueIdx.addf_apply]
  simp only [matmul]
  rw [Ideal.matmul_constant_zero_apply, ← Equiv.sum_comp (ValueIdx.contrEquiv1 dot_S5000x128_S128x128_S5000x128_1_0_0_1_n_n 128 rfl rfl).symm]
  congr 1
  · refine Finset.sum_congr rfl fun k _ => ?_
    have hk := ValueIdx.contrEquiv1_symm_val dot_S5000x128_S128x128_S5000x128_1_0_0_1_n_n 128 rfl rfl k
    have el : dot_S5000x128_S128x128_S5000x128_1_0_0_1_n_n.lhsIdx i ((ValueIdx.contrEquiv1 dot_S5000x128_S128x128_S5000x128_1_0_0_1_n_n 128 rfl rfl).symm k) = rowAt i k := funext fun a => Fin.ext (by
      match a with
      | ⟨0, _⟩ => exact lhs_axis0 _ _
      | ⟨1, _⟩ => exact (lhs_axis1 _ _).trans hk)
    have er : dot_S5000x128_S128x128_S5000x128_1_0_0_1_n_n.rhsIdx i ((ValueIdx.contrEquiv1 dot_S5000x128_S128x128_S5000x128_1_0_0_1_n_n 128 rfl rfl).symm k) = weightAt i k := funext fun a => Fin.ext (by
      match a with
      | ⟨0, _⟩ => exact (rhs_axis0 _ _).trans hk
      | ⟨1, _⟩ => exact rhs_axis1 _ _)
    rw [ValueIdx.truncf_apply, ValueIdx.truncf_apply, el, er]
  · exact broadcastTo_apply b broadcasts_S1x128_S5000x128 i (biasAt i) (fun a => match a with
      | ⟨0, _⟩ => by show 0 = if (1 : Nat) = 1 then 0 else _; rw [if_pos rfl]
      | ⟨1, _⟩ => by show (i 1).val = if (128 : Nat) = 1 then 0 else (i 1).val; rw [if_neg (by decide)])

/-! ## The stored block at an index -/

/-- The body's stored value at (p, q): the two linear layers added, then the maximum with zero. -/
theorem stored_apply (v0 v2 : Vec Ideal S5000x128 .f32) (v5 v8 : Vec Ideal S128x128 .f32) (v12 v17 : Vec Ideal S1x128 .f32) (i : S5000x128.Idx) :
    k1_pay1 (F := Ideal) v0 v2 v5 v8 v12 v17 i
      = max (((∑ k : Fin 128, v0 (rowAt i k) * v5 (weightAt i k)) + v12 (biasAt i))
            + ((∑ k : Fin 128, v2 (rowAt i k) * v8 (weightAt i k)) + v17 (biasAt i)))
          (FloatOps.ofBits (F := Ideal) .f32 0x00000000#32) := by
  unfold k1_pay1
  simp only [shapeCast_self]
  rw [ValueIdx.maximumf_apply, ValueIdx.addf_apply, linear_apply, linear_apply]
  rfl

end Cert.KernelIdeal.NodeBody

end
-- ==== Proof.NodeArray.lean ====
/-
  The output array after the second call, as ONE function of the arrays the call finds. The call's grid has 20 points;
  point t stages rows 5000·t … 5000·t + 4999 of the node features and of the aggregated messages (128 columns each),
  the two whole transposed weight matrices and the two whole bias rows, and writes back rows 5000·t … 5000·t + 4999 of
  the output. The body's stored value at a block index depends only on that row of the two staged blocks, so the
  written blocks are the blocks of the whole-array function
      out[n, o] = max( (Σ_k x[n, k] · Wsᵀ[k, o] + bs[0, o]) + (Σ_k agg[n, k] · Wnᵀ[k, o] + bn[0, o]), 0 ),
  and the 20 blocks tile the 100 000 rows, so the array ends holding exactly that function.
-/
import proofs.«106991_j14216341749897_1_alg».proof.Proof.Gen.KernelIdeal.Frame
import proofs.«106991_j14216341749897_1_alg».proof.Proof.NodeBody
import Idealize.ShloMosaic.Lib.Pipeline.Value

noncomputable section

namespace Cert.KernelIdeal.NodeArray

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The whole-array function -/

/-- Row `i 0` of a node array, column `k`. -/
abbrev rowAt (i : S100000x128.Idx) (k : Fin 128) : S100000x128.Idx := fun a => match a with
  | ⟨0, _⟩ => ⟨(i 0).val, (i 0).isLt⟩
  | ⟨1, _⟩ => ⟨k.val, k.isLt⟩
/-- Row `k` of a transposed weight matrix, output column `i 1`. -/
abbrev weightAt (i : S100000x128.Idx) (k : Fin 128) : S128x128.Idx := fun a => match a with
  | ⟨0, _⟩ => ⟨k.val, k.isLt⟩
  | ⟨1, _⟩ => ⟨(i 1).val, (i 1).isLt⟩
/-- A bias row at output column `i 1`. -/
abbrev biasAt (i : S100000x128.Idx) : S1x128.Idx := fun a => match a with
  | ⟨0, _⟩ => ⟨0, Nat.one_pos⟩
  | ⟨1, _⟩ => ⟨(i 1).val, (i 1).isLt⟩

/-- The layer's output on all nodes: the self layer plus the neighbour layer, then the maximum with zero. -/
def outOf (x agg : S100000x128.Idx → Elt Ideal .f32) (wsT : S128x128.Idx → Elt Ideal .f32) (bs : S1x128.Idx → Elt Ideal .f32)
    (wnT : S128x128.Idx → Elt Ideal .f32) (bn : S1x128.Idx → Elt Ideal .f32) : S100000x128.Idx → Elt Ideal .f32 :=
  fun i => max (((∑ k : Fin 128, x (rowAt i k) * wsT (weightAt i k)) + bs (biasAt i))
              + ((∑ k : Fin 128, agg (rowAt i k) * wnT (weightAt i k)) + bn (biasAt i)))
            (FloatOps.ofBits (F := Ideal) .f32 0x00000000#32)

/-! ## The grid's index maps -/

theorem zero_off : (![0, 0] : Fin 2 → Nat) = fun _ => 0 := funext fun a => by fin_cases a <;> rfl

/-- Decided over the 20 points: the two row-blocked input windows move with the output window along the rows and stay
    at column block 0; the weight and bias windows never move; the output window's row block is below 20. -/
theorem index_facts : ∀ t : Fin cfg1.N, win1_0.index t (0 : Fin 2) = win1_6.index t (0 : Fin 2)
    ∧ win1_0.index t (1 : Fin 2) = 0
    ∧ win1_1.index t (0 : Fin 2) = win1_6.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 19 :=
  (by decide +kernel : ∀ t : Fin grid1.N, _)

/-- Every row block is some point's. -/
theorem index_onto : ∀ q0 : Fin 20, ∃ t : Fin cfg1.N, win1_6.index t = ![q0.val, 0] :=
  (by decide +kernel : ∀ q0 : Fin 20, ∃ t : Fin grid1.N, win1_6.index t = ![q0.val, 0])

/-! ## What a point writes back -/

/-- Point `t` writes back block `t` of `outOf` of the arrays as the call finds them. -/
theorem flushed_eq (c : Dev nD) (t : Fin cfg1.N) :
    (dat1 V c).flushed 6 t = ((cfg1.win 6).blk t).view.read (Elt Ideal)
      (outOf (V c main_arg0) (V c main_v29) (V c main_v30) (V c main_v32) (V c main_v31) (V c main_v33)) := by
  show (cfg1.win 6).cut (grid1.coords t) ((dat1 V c).after 6 t) = _
  rw [after1_6]
  unfold out1_6
  rw [View.canon_unit_zero zero_off]
  simp only [View.ld_unit_zero (S := S5000x128) zero_off, View.ld_unit_zero (S := S128x128) zero_off, View.ld_unit_zero (S := S1x128) zero_off]
  obtain ⟨e0, e1, e2, e3, e4, e5, e6, e7, e8, e9, e10, e11, e12, e13⟩ := index_facts t
  funext j
  show k1_pay1 (F := Ideal) (iblk1 V c 0 t) (iblk1 V c 1 t) (iblk1 V c 2 t) (iblk1 V c 4 t) (iblk1 V c 3 t) (iblk1 V c 5 t) j
    = outOf (V c main_arg0) (V c main_v29) (V c main_v30) (V c main_v32) (V c main_v31) (V c main_v33) (((cfg1.win 6).blk t).view.emb j)
  refine (NodeBody.stored_apply (iblk1 V c 0 t) (iblk1 V c 1 t) (iblk1 V c 2 t) (iblk1 V c 4 t) (iblk1 V c 3 t) (iblk1 V c 5 t) j).trans ?_
  unfold outOf
  have hj0 : (j 0).val < 5000 := (j 0).isLt
  have hj1 : (j 1).val < 128 := (j 1).isLt
  have hx : ∀ k : Fin 128, iblk1 V c 0 t (NodeBody.rowAt j k) = V c main_arg0 (rowAt (((cfg1.win 6).blk t).view.emb j) k) := fun k => by
    show V c main_arg0 (((cfg1.win 0).blk t).view.emb (NodeBody.rowAt j k)) = _
    refine congrArg (V c main_arg0) (funext fun a => Fin.ext ?_)
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 128 + 1 * k.val = k.val; omega
  have ha : ∀ k : Fin 128, iblk1 V c 1 t (NodeBody.rowAt j k) = V c main_v29 (rowAt (((cfg1.win 6).blk t).view.emb j) k) := fun k => by
    show V c main_v29 (((cfg1.win 1).blk t).view.emb (NodeBody.rowAt j k)) = _
    refine congrArg (V c main_v29) (funext fun a => Fin.ext ?_)
    match a with
    | ⟨0, _⟩ => show win1_1.index t (0 : Fin 2) * 5000 + 1 * (j 0).val = win1_6.index t (0 : Fin 2) * 5000 + 1 * (j 0).val; omega
    | ⟨1, _⟩ => show win1_1.index t (1 : Fin 2) * 128 + 1 * k.val = k.val; omega
  have hws : ∀ k : Fin 128, iblk1 V c 2 t (NodeBody.weightAt j k) = V c main_v30 (weightAt (((cfg1.win 6).blk t).view.emb j) k) := fun k => by
    show V c main_v30 (((cfg1.win 2).blk t).view.emb (NodeBody.weightAt j k)) = _
    refine congrArg (V c main_v30) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_6.index t (1 : Fin 2) * 128 + 1 * (j 1).val; omega
  have hwn : ∀ k : Fin 128, iblk1 V c 4 t (NodeBody.weightAt j k) = V c main_v31 (weightAt (((cfg1.win 6).blk t).view.emb j) k) := fun k => by
    show V c main_v31 (((cfg1.win 4).blk t).view.emb (NodeBody.weightAt j k)) = _
    refine congrArg (V c main_v31) (funext fun a => Fin.ext ?_)
    match a with
    | ⟨0, _⟩ => show win1_4.index t (0 : Fin 2) * 128 + 1 * k.val = k.val; omega
    | ⟨1, _⟩ => show win1_4.index t (1 : Fin 2) * 128 + 1 * (j 1).val = win1_6.index t (1 : Fin 2) * 128 + 1 * (j 1).val; omega
  have hbs : iblk1 V c 3 t (NodeBody.biasAt j) = V c main_v32 (biasAt (((cfg1.win 6).blk t).view.emb j)) := by
    show V c main_v32 (((cfg1.win 3).blk t).view.emb (NodeBody.biasAt j)) = _
    refine congrArg (V c main_v32) (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_6.index t (1 : Fin 2) * 128 + 1 * (j 1).val; omega
  have hbn : iblk1 V c 5 t (NodeBody.biasAt j) = V c main_v33 (biasAt (((cfg1.win 6).blk t).view.emb j)) := by
    show V c main_v33 (((cfg1.win 5).blk t).view.emb (NodeBody.biasAt j)) = _
    refine congrArg (V c main_v33) (funext fun a => Fin.ext ?_)
    match a with
    | ⟨0, _⟩ => show win1_5.index t (0 : Fin 2) * 1 + 1 * 0 = 0; omega
    | ⟨1, _⟩ => show win1_5.index t (1 : Fin 2) * 128 + 1 * (j 1).val = win1_6.index t (1 : Fin 2) * 128 + 1 * (j 1).val; omega
  rw [hbs, hbn]
  refine congrArg (fun u => max u _) ?_
  refine congrArg₂ (· + ·) (congrArg (· + _) (Finset.sum_congr rfl fun k _ => ?_)) (congrArg (· + _) (Finset.sum_congr rfl fun k _ => ?_))
  · rw [hx k, hws k]
  · rw [ha k, hwn k]

/-! ## The blocks tile the array -/

/-- An index of the output array is in point `t`'s block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v34).slice (win1_6.rect t)).set ↔ _
  rw [View.set_slice_whole, Rect.mem_set_unit]
  exact Iff.rfl

/-- Every index lies in the block of the point whose row block is `row / 5000`. -/
theorem covered (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := index_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-! ## The array after the call -/

/-- After the call the output array holds `outOf` of the node features, the aggregated messages, the two transposed
    weight matrices and the two bias rows. -/
theorem final (c : Dev nD) :
    (dat1 V c).arrAt 6 cfg1.N = outOf (V c main_arg0) (V c main_v29) (V c main_v30) (V c main_v32) (V c main_v31) (V c main_v33) :=
  (dat1 V c).arrAt_eq_of_cover 6 _ (fun t _ => flushed_eq V c t) covered

end Cert.KernelIdeal.NodeArray

end
-- ==== Proof.HostChains.lean ====
/-
  The two host computations that the program and its reference share, each named as ONE function so that neither is
  ever opened: the edge features (for every edge, the source node's feature row — the source index wrapped when
  negative — beside the relation's embedding row, likewise wrapped), and the mean aggregation (the messages summed per
  destination node, divided by the larger of the node's in-degree and one). The reference's stages of the same names
  are these very functions: the two programs print them with the same operations, dimension records and literals.
-/
import proofs.«106991_j14216341749897_1_alg».proof.Proof.Gen.KernelIdeal
import proofs.«106991_j14216341749897_1_alg».proof.Proof.Gen.ReferenceIdeal.Read

noncomputable section

namespace Cert.KernelIdeal.HostChains

open Cert.KernelIdeal Cert.KernelIdeal.Gen Idealize.ShloMosaic Idealize.ShloMosaic.TcCoe Idealize.SL.Sem Idealize.ShloMosaic.StableHlo

variable {F : FTy → Type} [FloatOps F]

/-- The edge features: each edge's source row of the node features beside its relation's embedding row. -/
def featsOf (x0 : (⟨S100000x128, .f32⟩ : BufTy).Contents (Elt F)) (x1 x3 : (⟨S1600000, .i32⟩ : BufTy).Contents (Elt F)) (x4 : (⟨S64x32, .f32⟩ : BufTy).Contents (Elt F)) :
    (⟨S1600000x160, .f32⟩ : BufTy).Contents (Elt F) :=
  concatenate S1600000x160 1 [⟨S1600000x128, Host.gather gather_S100000x128_S1600000x1_S1600000x128_1_0_n_n_0_1_1128 x0 (broadcastInDim S1600000x1 ![0] bcast_S1600000_S1600000x1_0 (select (cmpi .slt x1 (broadcastInDim S1600000 ![] bcast_S_S1600000 (constantI S_ 32 0#32))) (addi x1 (broadcastInDim S1600000 ![] bcast_S_S1600000 (constantI S_ 32 100000#32))) x1))⟩, ⟨S1600000x32, Host.gather gather_S64x32_S1600000x1_S1600000x32_1_0_n_n_0_1_132 x4 (broadcastInDim S1600000x1 ![0] bcast_S1600000_S1600000x1_0 (select (cmpi .slt x3 (broadcastInDim S1600000 ![] bcast_S_S1600000 (constantI S_ 32 0#32))) (addi x3 (broadcastInDim S1600000 ![] bcast_S_S1600000 (constantI S_ 32 64#32))) x3))⟩] concatenates_S1600000x128_S1600000x32_S1600000x160_d1

/-- The mean aggregation: the messages summed per destination node, over the larger of the in-degree and one. -/
def aggOf (msg : (⟨S1600000x128, .f32⟩ : BufTy).Contents (Elt F)) (x2 : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 x2) msg)
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 x2)
            (broadcastInDim S1600000 ![] bcast_S_S1600000 (constant S_ .f32 0x3F800000#32)))
          (broadcastInDim S100000 ![] bcast_S_S100000 (constant S_ .f32 0x3F800000#32)))))

/-- The reference's edge-feature stage is the same function. -/
theorem featsOf_eq (x0 : (⟨S100000x128, .f32⟩ : BufTy).Contents (Elt F)) (x1 x3 : (⟨S1600000, .i32⟩ : BufTy).Contents (Elt F)) (x4 : (⟨S64x32, .f32⟩ : BufTy).Contents (Elt F)) :
    featsOf x0 x1 x3 x4 = Cert.ReferenceIdeal.Read.val_main_v14 (F := F) x0 x1 x3 x4 := rfl

/-- The reference's aggregation stage is the same function of ITS messages. -/
theorem aggOf_eq (x0 : (⟨S100000x128, .f32⟩ : BufTy).Contents (Elt F)) (x1 x2 x3 : (⟨S1600000, .i32⟩ : BufTy).Contents (Elt F)) (x4 : (⟨S64x32, .f32⟩ : BufTy).Contents (Elt F))
    (x5 : (⟨S128x160, .f32⟩ : BufTy).Contents (Elt F)) (x6 : (⟨S128, .f32⟩ : BufTy).Contents (Elt F)) :
    aggOf (Cert.ReferenceIdeal.Read.val_main_v19 (F := F) x0 x1 x3 x4 x5 x6) x2 = Cert.ReferenceIdeal.Read.val_main_v31 (F := F) x0 x1 x2 x3 x4 x5 x6 := rfl

/-- The reference's transposed message weights are the program's. -/
theorem msgWT_eq (x5 : (⟨S128x160, .f32⟩ : BufTy).Contents (Elt F)) :
    transpose S160x128 [1, 0] x5 transposes_S128x160_S160x128_1_0 = Cert.ReferenceIdeal.Read.val_main_v15 (F := F) x5 := rfl

/-- The reference's transposed self weights are the program's. -/
theorem selfWT_eq (x7 : (⟨S128x128, .f32⟩ : BufTy).Contents (Elt F)) :
    transpose S128x128 [1, 0] x7 transposes_S128x128_S128x128_1_0 = Cert.ReferenceIdeal.Read.val_main_v32 (F := F) x7 := rfl

/-- The reference's transposed neighbour weights are the program's. -/
theorem neighWT_eq (x9 : (⟨S128x128, .f32⟩ : BufTy).Contents (Elt F)) :
    transpose S128x128 [1, 0] x9 transposes_S128x128_S128x128_1_0 = Cert.ReferenceIdeal.Read.val_main_v37 (F := F) x9 := rfl

end Cert.KernelIdeal.HostChains

end
-- ==== Proof.EntryOne.lean ====
/-
  What the first call finds, and what it leaves. Before the first call the host has computed the edge features, the
  transposed message weights and the message bias as a one-row matrix; nothing else the call stages is written. So at
  the call's entry its three input arrays are those functions of the launch contents of the arguments, and at its exit
  the message array is what the call's write-backs leave.
-/
import proofs.«106991_j14216341749897_1_alg».proof.Proof.Gen.KernelIdeal.Frame
import proofs.«106991_j14216341749897_1_alg».proof.Proof.HostChains
import Idealize.ShloMosaic.Lib.StableHlo.Run

set_option maxRecDepth 16384

noncomputable section

namespace Cert.KernelIdeal.EntryOne

open Cert.KernelIdeal Cert.KernelIdeal.Gen Cert.KernelIdeal.HostChains Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

-- the thirteen operations up to the concatenation are read back one rewrite at a time
set_option maxHeartbeats 1600000 in
/-- The feature array at the first call's entry. -/
theorem feats (c : Dev nD) : V1 m ρ c main_v14 = featsOf (m ((c : Thread nD τ).loc main_arg0)) (m ((c : Thread nD τ).loc main_arg1)) (m ((c : Thread nD τ).loc main_arg3)) (m ((c : Thread nD τ).loc main_arg4)) := by
  show StableHlo.after hostOps0 (W0 m ρ c) (Proc.devRef .tc main_v14) = _
  after_results
  rfl

/-- The transposed message weights at the first call's entry. -/
theorem msgWT (c : Dev nD) : V1 m ρ c main_v15 = transpose S160x128 [1, 0] (m ((c : Thread nD τ).loc main_arg5)) transposes_S128x160_S160x128_1_0 := by
  show StableHlo.after hostOps0 (W0 m ρ c) (Proc.devRef .tc main_v15) = _
  after_results

/-- The message bias as a one-row matrix at the first call's entry. -/
theorem msgBias (c : Dev nD) : V1 m ρ c main_v16 = shapeCast S1x128 (m ((c : Thread nD τ).loc main_arg6)) shapeCasts_S128_S1x128 := by
  show StableHlo.after hostOps0 (W0 m ρ c) (Proc.devRef .tc main_v16) = _
  after_results
  rfl

/-- The message array at the first call's exit is what its write-backs leave. -/
theorem msgExit (c : Dev nD) : W2 m ρ c (Proc.devRef .tc main_v17) = (dat0 (V1 m ρ) c).arrAt 3 cfg0.N :=
  W2_arr m ρ c 3

end Cert.KernelIdeal.EntryOne

end
-- ==== Proof.EntryTwo.lean ====
/-
  What the second call finds, and what it leaves. Between the two calls the host aggregates the messages by destination
  node (one function of the message array and the destination indices), transposes the two weight matrices and turns the
  two biases into one-row matrices; it writes no argument. So at the second call's entry its six input arrays are the
  node features as launched, the aggregation of the first call's message array, and those functions of the launch
  contents of the arguments; at its exit the result array is what the call's write-backs leave.
-/
import proofs.«106991_j14216341749897_1_alg».proof.Proof.Gen.KernelIdeal.Frame
import proofs.«106991_j14216341749897_1_alg».proof.Proof.HostChains
import Idealize.ShloMosaic.Lib.StableHlo.Run

set_option maxRecDepth 16384

noncomputable section

namespace Cert.KernelIdeal.EntryTwo

open Cert.KernelIdeal Cert.KernelIdeal.Gen Cert.KernelIdeal.HostChains Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The arguments at the first call's exit -/

/-- Argument 0 is as launched at the first call's exit: neither the first host stretch nor the call writes it. -/
theorem kept_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument 2 is as launched at the first call's exit: neither the first host stretch nor the call writes it. -/
theorem kept_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Argument 7 is as launched at the first call's exit: neither the first host stretch nor the call writes it. -/
theorem kept_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- Argument 8 is as launched at the first call's exit: neither the first host stretch nor the call writes it. -/
theorem kept_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- Argument 9 is as launched at the first call's exit: neither the first host stretch nor the call writes it. -/
theorem kept_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- Argument 10 is as launched at the first call's exit: neither the first host stretch nor the call writes it. -/
theorem kept_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-! ## The second call's entry contents -/

/-- The node features at the second call's entry: the second host stretch does not write them either. -/
theorem nodeFeats (c : Dev nD) : V3 m ρ c main_arg0 = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := kept_arg0 m ρ c

/-- The aggregated messages at the second call's entry: the aggregation of the first call's message array. -/
theorem agg (c : Dev nD) : V3 m ρ c main_v29 = aggOf (W2 m ρ c (Proc.devRef .tc main_v17)) (m ((c : Thread nD τ).loc main_arg2)) := by
  show StableHlo.after hostOps1 (W2 m ρ c) (Proc.devRef .tc main_v29) = _
  after_results
  rw [kept_arg2 m ρ c]
  rfl

/-- The transposed self weights at the second call's entry. -/
theorem selfWT (c : Dev nD) : V3 m ρ c main_v30 = transpose S128x128 [1, 0] (m ((c : Thread nD τ).loc main_arg7)) transposes_S128x128_S128x128_1_0 := by
  show StableHlo.after hostOps1 (W2 m ρ c) (Proc.devRef .tc main_v30) = _
  after_results
  rw [kept_arg7 m ρ c]

/-- The transposed neighbour weights at the second call's entry. -/
theorem neighWT (c : Dev nD) : V3 m ρ c main_v31 = transpose S128x128 [1, 0] (m ((c : Thread nD τ).loc main_arg9)) transposes_S128x128_S128x128_1_0 := by
  show StableHlo.after hostOps1 (W2 m ρ c) (Proc.devRef .tc main_v31) = _
  after_results
  rw [kept_arg9 m ρ c]

/-- The self bias as a one-row matrix at the second call's entry. -/
theorem selfBias (c : Dev nD) : V3 m ρ c main_v32 = shapeCast S1x128 (m ((c : Thread nD τ).loc main_arg8)) shapeCasts_S128_S1x128 := by
  show StableHlo.after hostOps1 (W2 m ρ c) (Proc.devRef .tc main_v32) = _
  after_results
  rw [kept_arg8 m ρ c]
  rfl

/-- The neighbour bias as a one-row matrix at the second call's entry. -/
theorem neighBias (c : Dev nD) : V3 m ρ c main_v33 = shapeCast S1x128 (m ((c : Thread nD τ).loc main_arg10)) shapeCasts_S128_S1x128 := by
  show StableHlo.after hostOps1 (W2 m ρ c) (Proc.devRef .tc main_v33) = _
  after_results
  rw [kept_arg10 m ρ c]
  rfl

/-- The result array at the second call's exit is what its write-backs leave. -/
theorem outExit (c : Dev nD) : W4 m ρ c (Proc.devRef .tc main_v34) = (dat1 (V3 m ρ) c).arrAt 6 cfg1.N :=
  W4_arr m ρ c 6

end Cert.KernelIdeal.EntryTwo

end
-- ==== Proof.Bridge.lean ====
/-
  The program's result is the reference's. Reading the run back from the end: the result array is what the second call
  leaves, the node-update function of the arrays it finds; those are the node features as launched, the mean
  aggregation of the message array, and the transposed weights and one-row biases; the message array is what the first
  call leaves, the message function of the edge features, the transposed message weights and the one-row message bias.
  The reference computes the same three layers with whole-array contractions. Entry by entry,
    messages:  Σ_k feats[e, k] · Wᵀ[k, o] + b[o]                                       on both sides,
    output:    max((Σ_k x[n, k] · Wsᵀ[k, o] + bs[o]) + (Σ_k agg[n, k] · Wnᵀ[k, o] + bn[o]), 0)   on both sides,
  the edge features and the aggregation being the same host functions on both sides (never opened), a one-row bias
  matrix read at column o being the bias vector at o. No law of the extended reals beyond this reading is needed, so
  the inputs' finiteness is not used.
-/
import proofs.«106991_j14216341749897_1_alg».proof.Proof.MsgArray
import proofs.«106991_j14216341749897_1_alg».proof.Proof.NodeArray
import proofs.«106991_j14216341749897_1_alg».proof.Proof.HostChains
import proofs.«106991_j14216341749897_1_alg».proof.Proof.EntryOne
import proofs.«106991_j14216341749897_1_alg».proof.Proof.EntryTwo
import proofs.«106991_j14216341749897_1_alg».proof.Proof.Gen.ReferenceIdeal.Read

set_option maxRecDepth 16384

noncomputable section

namespace Cert.KernelIdeal.Bridge

open Cert.KernelIdeal Cert.KernelIdeal.Gen Cert.KernelIdeal.HostChains Idealize.ShloMosaic Idealize.ShloMosaic.TcCoe Idealize.SL.Sem Idealize.ShloMosaic.StableHlo

/-! ## The reference's operand indices are the program's -/

theorem msg_lidx (i : S1600000x128.Idx) (k : Fin 160) : Cert.ReferenceIdeal.Read.lidx_main_v16 i k = MsgArray.featAt i k :=
  funext fun a => by match a with | ⟨0, _⟩ => rfl | ⟨1, _⟩ => rfl
theorem msg_ridx (i : S1600000x128.Idx) (k : Fin 160) : Cert.ReferenceIdeal.Read.ridx_main_v16 i k = MsgArray.weightAt i k :=
  funext fun a => by match a with | ⟨0, _⟩ => rfl | ⟨1, _⟩ => rfl
theorem self_lidx (i : S100000x128.Idx) (k : Fin 128) : Cert.ReferenceIdeal.Read.lidx_main_v33 i k = NodeArray.rowAt i k :=
  funext fun a => by match a with | ⟨0, _⟩ => rfl | ⟨1, _⟩ => rfl
theorem self_ridx (i : S100000x128.Idx) (k : Fin 128) : Cert.ReferenceIdeal.Read.ridx_main_v33 i k = NodeArray.weightAt i k :=
  funext fun a => by match a with | ⟨0, _⟩ => rfl | ⟨1, _⟩ => rfl
theorem neigh_lidx (i : S100000x128.Idx) (k : Fin 128) : Cert.ReferenceIdeal.Read.lidx_main_v38 i k = NodeArray.rowAt i k :=
  funext fun a => by match a with | ⟨0, _⟩ => rfl | ⟨1, _⟩ => rfl
theorem neigh_ridx (i : S100000x128.Idx) (k : Fin 128) : Cert.ReferenceIdeal.Read.ridx_main_v38 i k = NodeArray.weightAt i k :=
  funext fun a => by match a with | ⟨0, _⟩ => rfl | ⟨1, _⟩ => rfl

/-! ## A bias vector as a one-row matrix, read at a column -/

/-- The one-row matrix of a 128-vector at (0, q) is the vector at q. -/
theorem row_of_vector (b : S128.Idx → Elt Ideal .f32) (j : S1x128.Idx) (k : S128.Idx) (hk : (k 0).val = (j 1).val) :
    shapeCast S1x128 b shapeCasts_S128_S1x128 j = b k := by
  refine shapeCast_apply b shapeCasts_S128_S1x128 j k ?_
  rw [Shape.rowMajor_val_one, Shape.rowMajor_val_two]
  have h0 : (j 0).val < 1 := (j 0).isLt
  show (k 0).val = (j 0).val * 128 + (j 1).val
  omega

/-! ## The messages -/

/-- The first call's message function of the shared edge features is the reference's message stage. -/
theorem msg_eq (x0 : (⟨S100000x128, .f32⟩ : BufTy).Contents (Elt Ideal)) (x1 x3 : (⟨S1600000, .i32⟩ : BufTy).Contents (Elt Ideal)) (x4 : (⟨S64x32, .f32⟩ : BufTy).Contents (Elt Ideal)) (x5 : (⟨S128x160, .f32⟩ : BufTy).Contents (Elt Ideal)) (x6 : (⟨S128, .f32⟩ : BufTy).Contents (Elt Ideal)) :
    MsgArray.msgOf (featsOf x0 x1 x3 x4) (transpose S160x128 [1, 0] x5 transposes_S128x160_S160x128_1_0) (shapeCast S1x128 x6 shapeCasts_S128_S1x128)
      = Cert.ReferenceIdeal.Read.val_main_v19 (F := Ideal) x0 x1 x3 x4 x5 x6 := by
  funext i
  rw [Cert.ReferenceIdeal.Read.val_main_v19_apply, Cert.ReferenceIdeal.Read.val_main_v16_apply, Cert.ReferenceIdeal.Read.val_main_v18_apply, Cert.ReferenceIdeal.Read.val_main_v17_apply, featsOf_eq, msgWT_eq]
  unfold MsgArray.msgOf
  rw [row_of_vector x6 (MsgArray.biasAt i) (Cert.ReferenceIdeal.Read.idx_main_v17 (Cert.ReferenceIdeal.Read.idx_main_v18 i)) rfl]
  simp only [msg_lidx, msg_ridx]
  rfl

/-! ## The output -/

/-- The second call's node-update function of the aggregated messages is the reference's result stage. -/
theorem out_eq (x0 : (⟨S100000x128, .f32⟩ : BufTy).Contents (Elt Ideal)) (x1 x2 x3 : (⟨S1600000, .i32⟩ : BufTy).Contents (Elt Ideal)) (x4 : (⟨S64x32, .f32⟩ : BufTy).Contents (Elt Ideal)) (x5 : (⟨S128x160, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    NodeArray.outOf x0
        (aggOf (MsgArray.msgOf (featsOf x0 x1 x3 x4) (transpose S160x128 [1, 0] x5 transposes_S128x160_S160x128_1_0) (shapeCast S1x128 x6 shapeCasts_S128_S1x128)) x2)
        (transpose S128x128 [1, 0] x7 transposes_S128x128_S128x128_1_0) (shapeCast S1x128 x8 shapeCasts_S128_S1x128)
        (transpose S128x128 [1, 0] x9 transposes_S128x128_S128x128_1_0) (shapeCast S1x128 x10 shapeCasts_S128_S1x128)
      = Cert.ReferenceIdeal.Read.val_main_v43 (F := Ideal) x0 x1 x2 x3 x4 x5 x6 x7 x8 x9 x10 := by
  rw [msg_eq, aggOf_eq, selfWT_eq, neighWT_eq]
  funext i
  rw [Cert.ReferenceIdeal.Read.val_main_v43_apply, Cert.ReferenceIdeal.Read.val_main_v42_apply, Cert.ReferenceIdeal.Read.val_main_v36_apply, Cert.ReferenceIdeal.Read.val_main_v41_apply,
    Cert.ReferenceIdeal.Read.val_main_v33_apply, Cert.ReferenceIdeal.Read.val_main_v38_apply, Cert.ReferenceIdeal.Read.val_main_v35_apply, Cert.ReferenceIdeal.Read.val_main_v34_apply,
    Cert.ReferenceIdeal.Read.val_main_v40_apply, Cert.ReferenceIdeal.Read.val_main_v39_apply, Cert.ReferenceIdeal.Read.val_main_call0_v0_apply, Cert.ReferenceIdeal.Read.val_main_call0_cst_apply]
  unfold NodeArray.outOf
  rw [row_of_vector x8 (NodeArray.biasAt i) (Cert.ReferenceIdeal.Read.idx_main_v34 (Cert.ReferenceIdeal.Read.idx_main_v35 i)) rfl,
    row_of_vector x10 (NodeArray.biasAt i) (Cert.ReferenceIdeal.Read.idx_main_v39 (Cert.ReferenceIdeal.Read.idx_main_v40 i)) rfl]
  simp only [self_lidx, self_ridx, neigh_lidx, neigh_ridx]
  rfl

/-! ## The run's result -/

variable (m : (ℓ : Loc nD τ sig) → Buf (Elt Ideal) ℓ) (ρ : Dev nD → PrngReg)

/-- The contents of the result buffer at the last segment boundary are the reference's result stage of the arguments
    as launched. -/
theorem result_eq (c : Dev nD) :
    W4 m ρ c (Proc.devRef .tc main_v34)
      = Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [EntryTwo.outExit m ρ c, NodeArray.final (V3 m ρ) c, EntryTwo.nodeFeats m ρ c, EntryTwo.agg m ρ c, EntryTwo.selfWT m ρ c,
    EntryTwo.neighWT m ρ c, EntryTwo.selfBias m ρ c, EntryTwo.neighBias m ρ c, EntryOne.msgExit m ρ c, MsgArray.final (V1 m ρ) c,
    EntryOne.feats m ρ c, EntryOne.msgWT m ρ c, EntryOne.msgBias m ρ c]
  exact out_eq _ _ _ _ _ _ _ _ _ _ _

end Cert.KernelIdeal.Bridge

end
-- ==== Proof.lean ====
/-
  A relational graph layer with mean aggregation, computed two ways.
  For 1 600 000 edges over 100 000 nodes: every edge's message is the linear image (weights 128 x 160, a bias) of the
  source node's 128 features beside the edge relation's 32 embedding entries; a node's aggregate is the sum of the
  messages arriving at it over the larger of its in-degree and one; the output is
      max( (x · Wsᵀ + bs) + (agg · Wnᵀ + bn), 0 ).
  The program gathers the edge features on the host, computes the messages in a first tiled call (200 blocks of 8000
  edges), aggregates on the host, and computes the output in a second tiled call (20 blocks of 5000 nodes); the
  reference does the gathers and the aggregation with the same host operations and the three linear layers as whole-array
  contractions. On extended reals the roundings on the way into the tiled contractions are the identity and a
  contraction into a zero accumulator is the plain sum, so each call's blocks are the blocks of one whole-array
  function, and entry by entry that function is the reference's contraction plus its bias (Proof/Bridge.lean). Only
  sums and products in the same arrangement meet on the two sides, so no finiteness of the inputs is used.

  The three frames: the two tiled programs' are their frame certificates; the reference's is its run with the result
  dropped. The idealization rewrote nothing, so there is nothing to preserve. The value claim sets the program's run
  with its result named (Proof/KernelRun.lean, read back in Proof/Bridge.lean) beside the reference's run.
-/
import proofs.«106991_j14216341749897_1_alg».proof.Defs
import proofs.«106991_j14216341749897_1_alg».proof.Proof.Gen.Kernel
import proofs.«106991_j14216341749897_1_alg».proof.Proof.Gen.Kernel.Skeleton
import proofs.«106991_j14216341749897_1_alg».proof.Proof.Gen.Kernel.Launch
import proofs.«106991_j14216341749897_1_alg».proof.Proof.Gen.Kernel.Points
import proofs.«106991_j14216341749897_1_alg».proof.Proof.Gen.Kernel.Frame
import proofs.«106991_j14216341749897_1_alg».proof.Proof.Gen.KernelIdeal
import proofs.«106991_j14216341749897_1_alg».proof.Proof.Gen.KernelIdeal.Skeleton
import proofs.«106991_j14216341749897_1_alg».proof.Proof.Gen.KernelIdeal.Launch
import proofs.«106991_j14216341749897_1_alg».proof.Proof.Gen.KernelIdeal.Points
import proofs.«106991_j14216341749897_1_alg».proof.Proof.Gen.KernelIdeal.Frame
import proofs.«106991_j14216341749897_1_alg».proof.Proof.Gen.ReferenceIdeal
import proofs.«106991_j14216341749897_1_alg».proof.Proof.Gen.ReferenceIdeal.Run
import proofs.«106991_j14216341749897_1_alg».proof.Proof.Gen.ReferenceIdeal.Read
import proofs.«106991_j14216341749897_1_alg».proof.Proof.Gen.Pre_finite_inputs
import proofs.«106991_j14216341749897_1_alg».proof.Proof.KernelRun
import proofs.«106991_j14216341749897_1_alg».proof.Proof.Bridge
import Idealize.ShloMosaic.Adequacy
import Idealize.ShloMosaic.Init

noncomputable section

namespace Cert.Proof

open Idealize.ShloMosaic Idealize.SL.Sem

/-- The word-level program terminates, faults nowhere and leaves its arguments. -/
theorem frame_kernel : Cert.frame_Kernel (hKernel := Cert.Kernel.Gen.facts) (hPre_finite_inputs := Cert.Pre_finite_inputs.Gen.facts) :=
  fun m ρ _ => Cert.Kernel.Gen.frame m ρ

/-- So does the program read at the exact values. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the eleven arguments both runs end with the reference's result stage of the program's
    launch contents: the program's by the bridge, the reference's by its run with the agreement rewritten. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.Read.val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.KernelIdeal.Bridge.result_eq m ρ c), (h c).2⟩)
      (Cert.KernelIdeal.KernelRun.run (F := Ideal) m ρ)
  · refine (θ_run Cert.ReferenceIdeal.defs _ _).mono (fun _ h c => ⟨(h c).1.trans ?_, (h c).2⟩) (Cert.ReferenceIdeal.Value.run (F := Ideal) m' ρ')
    obtain ⟨h0, h1, h2, h3, h4, h5, h6, h7, h8, h9, h10⟩ := hagree c
    rw [h0, h1, h2, h3, h4, h5, h6, h7, h8, h9, h10]
    exact Cert.ReferenceIdeal.Read.val_main_v43_eq _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
